-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel

variable [Facts]

def fn {F : FTy → Type} [FloatOps F] (main_arg0 : FVec F S4194304x8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  main_v3
-- ==== Kernel.lean ====
abbrev S4194304x8 : Shape := ⟨2, ![4194304, 8]⟩
abbrev S4194304x9 : Shape := ⟨2, ![4194304, 9]⟩
abbrev S8192x8 : Shape := ⟨2, ![8192, 8]⟩
abbrev S8192x9 : Shape := ⟨2, ![8192, 9]⟩
abbrev S8x8192 : Shape := ⟨2, ![8, 8192]⟩
abbrev S1x8192 : Shape := ⟨2, ![1, 8192]⟩
abbrev S9x8192 : Shape := ⟨2, ![9, 8192]⟩

abbrev nBuf : Space → Nat
  | .hbm => 2
  | .vmem => 4
  | .smem => 0
  | _ => 0

abbrev bufTy : (tb : Table) → Fin (tcTables nBuf tb) → BufTy
  | .hbm, ⟨0, _⟩ => ⟨S4194304x8, .f32⟩
  | .hbm, ⟨1, _⟩ => ⟨S4194304x9, .f32⟩
  | .local _ .vmem, ⟨0, _⟩ => ⟨S8192x8, .f32⟩
  | .local _ .vmem, ⟨1, _⟩ => ⟨S8192x8, .f32⟩
  | .local _ .vmem, ⟨2, _⟩ => ⟨S8192x9, .f32⟩
  | .local _ .vmem, ⟨3, _⟩ => ⟨S8192x9, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  transposes_S8192x8_p1_0_S8x8192 : S8192x8.Transposes [1, 0] S8x8192
  slices_S8x8192_o0_0_S1x8192 : S8x8192.Slices ![0, 0] S1x8192
  slices_S8x8192_o1_0_S1x8192 : S8x8192.Slices ![1, 0] S1x8192
  slices_S8x8192_o2_0_S1x8192 : S8x8192.Slices ![2, 0] S1x8192
  slices_S8x8192_o3_0_S1x8192 : S8x8192.Slices ![3, 0] S1x8192
  slices_S8x8192_o4_0_S1x8192 : S8x8192.Slices ![4, 0] S1x8192
  slices_S8x8192_o5_0_S1x8192 : S8x8192.Slices ![5, 0] S1x8192
  slices_S8x8192_o6_0_S1x8192 : S8x8192.Slices ![6, 0] S1x8192
  slices_S8x8192_o7_0_S1x8192 : S8x8192.Slices ![7, 0] S1x8192
  concatenates_S1x8192_S1x8192_S1x8192_S1x8192_S1x8192_S1x8192_S1x8192_S1x8192_S1x8192_S9x8192_d0 : Shape.Concatenates [S1x8192, S1x8192, S1x8192, S1x8192, S1x8192, S1x8192, S1x8192, S1x8192, S1x8192] S9x8192 0
  transposes_S9x8192_p1_0_S8192x9 : S9x8192.Transposes [1, 0] S8192x9
  inb_S8192x9_S8192x9_0_0 : ∀ a, (![0, 0] : Fin 2 → Nat) a + S8192x9.size a ≤ S8192x9.size a
  h_S8192x9 : 0 < S8192x9.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S4194304x8.size a
  hwx0_0 : ∀ i : grid0.Coords, EltTy.bits .f32 = 32 ∨ (Rect.block (s := S4194304x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x9.size a ≤ S4194304x9.size a
  hwx0_1 : ∀ i : grid0.Coords, EltTy.bits .f32 = 32 ∨ (Rect.block (s := S4194304x9) S8192x9.size (cc0_transform_1 i) (hinb0_1 i)).WholeWords (EltTy.packing .f32)

variable [Facts₀]

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S4194304x1 : Shape := ⟨2, ![4194304, 1]⟩
abbrev S4194304 : Shape := ⟨1, ![4194304]⟩
abbrev S_ : Shape := ⟨0, ![]⟩
abbrev S4194304x3 : Shape := ⟨2, ![4194304, 3]⟩
abbrev S4194304x1x3 : Shape := ⟨3, ![4194304, 1, 3]⟩
abbrev S4194304x3x3 : Shape := ⟨3, ![4194304, 3, 3]⟩
abbrev S4194304x9 : Shape := ⟨2, ![4194304, 9]⟩

abbrev nBuf : Space → Nat
  | .hbm => 147
  | .vmem => 0
  | .smem => 0
  | _ => 0

abbrev hbmTy0_0 (i : Nat) : BufTy := match i % 128 with
  | 0 => ⟨S4194304x8, .f32⟩
  | 1 => ⟨S4194304x1, .f32⟩
  | 2 => ⟨S4194304, .f32⟩
  | 3 => ⟨S4194304x1, .f32⟩
  | 4 => ⟨S4194304, .f32⟩
  | 5 => ⟨S4194304x1, .f32⟩
  | 6 => ⟨S4194304, .f32⟩
  | 7 => ⟨S4194304x1, .f32⟩
  | 8 => ⟨S4194304, .f32⟩
  | 9 => ⟨S4194304x1, .f32⟩
  | 10 => ⟨S4194304, .f32⟩
  | 11 => ⟨S4194304x1, .f32⟩
  | 12 => ⟨S4194304, .f32⟩
  | 13 => ⟨S4194304x1, .f32⟩
  | 14 => ⟨S4194304, .f32⟩
  | 15 => ⟨S4194304x1, .f32⟩
  | 16 => ⟨S4194304, .f32⟩
  | 17 => ⟨S_, .f32⟩
  | 18 => ⟨S4194304, .f32⟩
  | 19 => ⟨S_, .f32⟩
  | 20 => ⟨S4194304, .f32⟩
  | 21 => ⟨S4194304, .f32⟩
  | 22 => ⟨S4194304, .f32⟩
  | 23 => ⟨S4194304, .f32⟩
  | 24 => ⟨S4194304, .f32⟩
  | 25 => ⟨S4194304, .f32⟩
  | 26 => ⟨S4194304, .f32⟩
  | 27 => ⟨S4194304, .f32⟩
  | 28 => ⟨S4194304x1, .f32⟩
  | 29 => ⟨S4194304x1, .f32⟩
  | 30 => ⟨S4194304x1, .f32⟩
  | 31 => ⟨S4194304x3, .f32⟩
  | 32 => ⟨S4194304x1, .f32⟩
  | 33 => ⟨S4194304x1, .f32⟩
  | 34 => ⟨S4194304x1, .f32⟩
  | 35 => ⟨S4194304x3, .f32⟩
  | 36 => ⟨S4194304x1, .f32⟩
  | 37 => ⟨S4194304x1, .f32⟩
  | 38 => ⟨S4194304x1, .f32⟩
  | 39 => ⟨S4194304x3, .f32⟩
  | 40 => ⟨S4194304x1x3, .f32⟩
  | 41 => ⟨S4194304x1x3, .f32⟩
  | 42 => ⟨S4194304x1x3, .f32⟩
  | 43 => ⟨S4194304x3x3, .f32⟩
  | 44 => ⟨S4194304, .f32⟩
  | 45 => ⟨S4194304x1, .f32⟩
  | 46 => ⟨S4194304x1, .f32⟩
  | 47 => ⟨S4194304x1, .f32⟩
  | 48 => ⟨S4194304x3, .f32⟩
  | 49 => ⟨S4194304x1, .f32⟩
  | 50 => ⟨S4194304x1, .f32⟩
  | 51 => ⟨S4194304x1, .f32⟩
  | 52 => ⟨S4194304x3, .f32⟩
  | 53 => ⟨S4194304x1, .f32⟩
  | 54 => ⟨S4194304x1, .f32⟩
  | 55 => ⟨S4194304x1, .f32⟩
  | 56 => ⟨S4194304x3, .f32⟩
  | 57 => ⟨S4194304x1x3, .f32⟩
  | 58 => ⟨S4194304x1x3, .f32⟩
  | 59 => ⟨S4194304x1x3, .f32⟩
  | 60 => ⟨S4194304x3x3, .f32⟩
  | 61 => ⟨S4194304, .f32⟩
  | 62 => ⟨S4194304x1, .f32⟩
  | 63 => ⟨S4194304x1, .f32⟩
  | 64 => ⟨S4194304x1, .f32⟩
  | 65 => ⟨S4194304x3, .f32⟩
  | 66 => ⟨S4194304x1, .f32⟩
  | 67 => ⟨S4194304x1, .f32⟩
  | 68 => ⟨S4194304x1, .f32⟩
  | 69 => ⟨S4194304x3, .f32⟩
  | 70 => ⟨S4194304x1, .f32⟩
  | 71 => ⟨S4194304x1, .f32⟩
  | 72 => ⟨S4194304x1, .f32⟩
  | 73 => ⟨S4194304x3, .f32⟩
  | 74 => ⟨S4194304x1x3, .f32⟩
  | 75 => ⟨S4194304x1x3, .f32⟩
  | 76 => ⟨S4194304x1x3, .f32⟩
  | 77 => ⟨S4194304x3x3, .f32⟩
  | 78 => ⟨S4194304x3x3, .f32⟩
  | 79 => ⟨S4194304x3x3, .f32⟩
  | 80 => ⟨S4194304, .f32⟩
  | 81 => ⟨S4194304, .f32⟩
  | 82 => ⟨S4194304, .f32⟩
  | 83 => ⟨S4194304x1, .f32⟩
  | 84 => ⟨S4194304x1, .f32⟩
  | 85 => ⟨S4194304x1, .f32⟩
  | 86 => ⟨S4194304x3, .f32⟩
  | 87 => ⟨S4194304x1, .f32⟩
  | 88 => ⟨S4194304x1, .f32⟩
  | 89 => ⟨S4194304x1, .f32⟩
  | 90 => ⟨S4194304x3, .f32⟩
  | 91 => ⟨S4194304x1, .f32⟩
  | 92 => ⟨S4194304x1, .f32⟩
  | 93 => ⟨S4194304x1, .f32⟩
  | 94 => ⟨S4194304x3, .f32⟩
  | 95 => ⟨S4194304x1x3, .f32⟩
  | 96 => ⟨S4194304x1x3, .f32⟩
  | 97 => ⟨S4194304x1x3, .f32⟩
  | 98 => ⟨S4194304x3x3, .f32⟩
  | 99 => ⟨S_, .f32⟩
  | 100 => ⟨S4194304, .f32⟩
  | 101 => ⟨S4194304, .f32⟩
  | 102 => ⟨S_, .f32⟩
  | 103 => ⟨S4194304, .f32⟩
  | 104 => ⟨S4194304, .f32⟩
  | 105 => ⟨S_, .f32⟩
  | 106 => ⟨S4194304, .f32⟩
  | 107 => ⟨S4194304, .f32⟩
  | 108 => ⟨S_, .f32⟩
  | 109 => ⟨S4194304, .f32⟩
  | 110 => ⟨S4194304, .f32⟩
  | 111 => ⟨S4194304x1, .f32⟩
  | 112 => ⟨S4194304x1, .f32⟩
  | 113 => ⟨S4194304x1, .f32⟩
  | 114 => ⟨S4194304x3, .f32⟩
  | 115 => ⟨S4194304x1, .f32⟩
  | 116 => ⟨S4194304x1, .f32⟩
  | 117 => ⟨S4194304x1, .f32⟩
  | 118 => ⟨S4194304x3, .f32⟩
  | 119 => ⟨S4194304x1, .f32⟩
  | 120 => ⟨S4194304x1, .f32⟩
  | 121 => ⟨S4194304x1, .f32⟩
  | 122 => ⟨S4194304x3, .f32⟩
  | 123 => ⟨S4194304x1x3, .f32⟩
  | 124 => ⟨S4194304x1x3, .f32⟩
  | 125 => ⟨S4194304x1x3, .f32⟩
  | 126 => ⟨S4194304x3x3, .f32⟩
  | 127 => ⟨S4194304x1, .f32⟩
  | _ => ⟨S4194304x8, .f32⟩

abbrev hbmTy0_1 (i : Nat) : BufTy := match i % 128 with
  | 0 => ⟨S4194304x1, .f32⟩
  | 1 => ⟨S4194304x1, .f32⟩
  | 2 => ⟨S4194304x3, .f32⟩
  | 3 => ⟨S4194304x1, .f32⟩
  | 4 => ⟨S4194304x1, .f32⟩
  | 5 => ⟨S4194304x1, .f32⟩
  | 6 => ⟨S4194304x3, .f32⟩
  | 7 => ⟨S4194304x1, .f32⟩
  | 8 => ⟨S4194304x1, .f32⟩
  | 9 => ⟨S4194304x1, .f32⟩
  | 10 => ⟨S4194304x3, .f32⟩
  | 11 => ⟨S4194304x1x3, .f32⟩
  | 12 => ⟨S4194304x1x3, .f32⟩
  | 13 => ⟨S4194304x1x3, .f32⟩
  | 14 => ⟨S4194304x3x3, .f32⟩
  | 15 => ⟨S4194304x3x3, .f32⟩
  | 16 => ⟨S4194304x3x3, .f32⟩
  | 17 => ⟨S4194304x3x3, .f32⟩
  | 18 => ⟨S4194304x9, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_cst_1 : Ref sig .tc := ⟨.hbm, 99, rfl⟩
abbrev main_v96 : Ref sig .tc := ⟨.hbm, 100, rfl⟩
abbrev main_v97 : Ref sig .tc := ⟨.hbm, 101, rfl⟩
abbrev main_cst_2 : Ref sig .tc := ⟨.hbm, 102, rfl⟩
abbrev main_v98 : Ref sig .tc := ⟨.hbm, 103, rfl⟩
abbrev main_v99 : Ref sig .tc := ⟨.hbm, 104, rfl⟩
abbrev main_cst_3 : Ref sig .tc := ⟨.hbm, 105, rfl⟩
abbrev main_v100 : Ref sig .tc := ⟨.hbm, 106, rfl⟩
abbrev main_v101 : Ref sig .tc := ⟨.hbm, 107, rfl⟩
abbrev main_cst_4 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩

abbrev nD : Nat := 1
abbrev τ : Topo := Topo.v7x

variable {F : FTy → Type} [FloatOps F]

class Facts₀ : Prop where
  slices_S4194304x8_S4194304x1_0_0 : S4194304x8.Slices ![0, 0] S4194304x1
  shapeCasts_S4194304x1_S4194304 : S4194304x1.ShapeCasts S4194304
  slices_S4194304x8_S4194304x1_0_1 : S4194304x8.Slices ![0, 1] S4194304x1
  slices_S4194304x8_S4194304x1_0_2 : S4194304x8.Slices ![0, 2] S4194304x1
  slices_S4194304x8_S4194304x1_0_3 : S4194304x8.Slices ![0, 3] S4194304x1
  slices_S4194304x8_S4194304x1_0_4 : S4194304x8.Slices ![0, 4] S4194304x1
  slices_S4194304x8_S4194304x1_0_5 : S4194304x8.Slices ![0, 5] S4194304x1
  slices_S4194304x8_S4194304x1_0_6 : S4194304x8.Slices ![0, 6] S4194304x1
  slices_S4194304x8_S4194304x1_0_7 : S4194304x8.Slices ![0, 7] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x3_d1 : Shape.Concatenates [S4194304x1, S4194304x1, S4194304x1] S4194304x3 1
  bcast_S4194304x3_S4194304x1x3_0_2 : S4194304x3.BroadcastsInDim S4194304x1x3 (![0, 2] : Fin 2 → Fin S4194304x1x3.rank)
  concatenates_S4194304x1x3_S4194304x1x3_S4194304x1x3_S4194304x3x3_d1 : Shape.Concatenates [S4194304x1x3, S4194304x1x3, S4194304x1x3] S4194304x3x3 1
  shapeCasts_S4194304x3x3_S4194304x9 : S4194304x3x3.ShapeCasts S4194304x9
  dot_S4194304x3x3_S4194304x3x3_S4194304x3x3_2_1_1_2_0_0_wf : DotDims.WF S4194304x3x3 S4194304x3x3 S4194304x3x3 [2] [1] [1] [2] [0] [0]

variable [Facts₀]

def dot_S4194304x3x3_S4194304x3x3_S4194304x3x3_2_1_1_2_0_0 : DotDims S4194304x3x3 S4194304x3x3 S4194304x3x3 where
  lhsContracting := [2]
  rhsContracting := [1]
  lhsNonContracting := [1]
  rhsNonContracting := [2]
  lhsBatch := [0]
  rhsBatch := [0]
  wf := dot_S4194304x3x3_S4194304x3x3_S4194304x3x3_2_1_1_2_0_0_wf

class Facts : Prop extends Facts₀ where

variable [Facts]
-- ==== Proof.RowEntries.lean ====
/-
  One row of the layer, as mathematics over the extended reals.

  A row holds eight parameters: two focal lengths `f1 f2`, three angles `rx ry rz` and a translation `tx ty tz`.
  From them the layer builds the 3×3 matrix  F = K₂ · (T · (R · K₁)),  where
    R  = Rx · (Ry · Rz)  is the product of the three axis rotations,
    T  is the skew matrix of the translation,
    K₁ = diag(k₁, k₁, 1), K₂ = diag(k₂, k₂, 1)  with  kᵢ = -1 / (fᵢ + ε).
  `Row.entry` lists the nine entries of F the way one program spells them: every product of matrices already
  expanded into scalar products, the zero entries dropped. `Row.product` is the same matrix the way the other
  program spells it: five products of 3×3 matrices, each entry a sum of three terms, with the zeros and ones
  of the factors still in it.

  The two agree on EVERY extended real (`Row.product_eq_entry`), infinities included, because only these laws
  are used: `0 · x = 0`, `x + 0 = x`, `1 · x = x`, the product is commutative and associative, a sign moves
  through a product, and `a - b = a + -b`. No product is ever distributed over a sum, which is the one law
  the extended reals lack at `±∞`; so no finiteness of the parameters is needed.
-/
import Idealize.ShloMosaic.PureOps.Ideal
import Idealize.ShloMosaic.Lib.ValueIdx
import Mathlib.Algebra.BigOperators.Fin

noncomputable section

open scoped BigOperators

namespace Cert.RowMatrix

open Idealize.ShloMosaic

/-- The guard `ε` both programs add to a focal length, as the extended real its pattern denotes. -/
def eps : EReal := Ideal.ofBits .f32 0x322BCC77#32

/-- The numerator `-1` of both programs' reciprocals, as the extended real its pattern denotes. -/
def negOne : EReal := Ideal.ofBits .f32 0xBF800000#32

/-- The eight parameters of one row. -/
structure Row where
  f1 : EReal
  f2 : EReal
  rx : EReal
  ry : EReal
  rz : EReal
  tx : EReal
  ty : EReal
  tz : EReal

namespace Row

variable (x : Row)

/-- Cosine and sine of the three angles. -/
def cx : EReal := Ideal.cos x.rx
def sx : EReal := Ideal.sin x.rx
def cy : EReal := Ideal.cos x.ry
def sy : EReal := Ideal.sin x.ry
def cz : EReal := Ideal.cos x.rz
def sz : EReal := Ideal.sin x.rz

/-- The two scale factors `-1 / (f + ε)`. -/
def k1 : EReal := Ideal.div negOne (x.f1 + eps)
def k2 : EReal := Ideal.div negOne (x.f2 + eps)

/-! ### The rotation `Rx · (Ry · Rz)`, entry by entry -/

def r00 : EReal := x.cy * x.cz
def r01 : EReal := (0 - x.cy) * x.sz
def r02 : EReal := 0 - x.sy
def r10 : EReal := x.cx * x.sz - x.sx * x.sy * x.cz
def r11 : EReal := x.cx * x.cz + x.sx * x.sy * x.sz
def r12 : EReal := (0 - x.sx) * x.cy
def r20 : EReal := x.sx * x.sz + x.cx * x.sy * x.cz
def r21 : EReal := x.sx * x.cz - x.cx * x.sy * x.sz
def r22 : EReal := x.cx * x.cy

/-- The nine entries of `F = K₂ · (T · (R · K₁))`, row-major, every matrix product expanded: the first two
    columns of `R` carry the factor `k₁`, the first two rows of the result the factor `k₂`, and each entry of
    `T · (R · K₁)` is the two-term cross-product combination of one column. -/
def entry : Fin 9 → EReal := ![
  x.k2 * ((0 - x.tz) * (x.k1 * x.r10) + x.ty * (x.k1 * x.r20)),
  x.k2 * ((0 - x.tz) * (x.k1 * x.r11) + x.ty * (x.k1 * x.r21)),
  x.k2 * ((0 - x.tz) * x.r12 + x.ty * x.r22),
  x.k2 * (x.tz * (x.k1 * x.r00) - x.tx * (x.k1 * x.r20)),
  x.k2 * (x.tz * (x.k1 * x.r01) - x.tx * (x.k1 * x.r21)),
  x.k2 * (x.tz * x.r02 - x.tx * x.r22),
  (0 - x.ty) * (x.k1 * x.r00) + x.tx * (x.k1 * x.r10),
  (0 - x.ty) * (x.k1 * x.r01) + x.tx * (x.k1 * x.r11),
  (0 - x.ty) * x.r02 + x.tx * x.r12]

end Row

/-! ## The same matrix as five products of 3×3 matrices -/

/-- The product of two 3×3 matrices of extended reals: entry `(p, q)` is the sum over the inner index. -/
def mmul (A B : Fin 3 → Fin 3 → EReal) : Fin 3 → Fin 3 → EReal := fun p q => ∑ k : Fin 3, A p k * B k q

/-- Entry `(p, q)` of a product, the sum written out. -/
theorem mmul_apply (A B : Fin 3 → Fin 3 → EReal) (p q : Fin 3) :
    mmul A B p q = A p 0 * B 0 q + A p 1 * B 1 q + A p 2 * B 2 q := by
  unfold mmul; rw [Fin.sum_univ_three]

namespace Row

variable (x : Row)

/-- The rotation about the first axis. -/
def Rx : Fin 3 → Fin 3 → EReal := ![![1, 0, 0], ![0, x.cx, -x.sx], ![0, x.sx, x.cx]]
/-- The rotation about the second axis. -/
def Ry : Fin 3 → Fin 3 → EReal := ![![x.cy, 0, -x.sy], ![0, 1, 0], ![x.sy, 0, x.cy]]
/-- The rotation about the third axis. -/
def Rz : Fin 3 → Fin 3 → EReal := ![![x.cz, -x.sz, 0], ![x.sz, x.cz, 0], ![0, 0, 1]]
/-- The skew matrix of the translation. -/
def T : Fin 3 → Fin 3 → EReal := ![![0, -x.tz, x.ty], ![x.tz, 0, -x.tx], ![-x.ty, x.tx, 0]]
/-- The inverse intrinsic matrices, `diag(k, k, 1)`. -/
def K1 : Fin 3 → Fin 3 → EReal := ![![x.k1, 0, 0], ![0, x.k1, 0], ![0, 0, 1]]
def K2 : Fin 3 → Fin 3 → EReal := ![![x.k2, 0, 0], ![0, x.k2, 0], ![0, 0, 1]]

/-- `F` as the five matrix products. -/
def product : Fin 3 → Fin 3 → EReal :=
  mmul x.K2 (mmul x.T (mmul (mmul x.Rx (mmul x.Ry x.Rz)) x.K1))

/-- `Ry · Rz`: a zero or a one in a factor kills or keeps its term. -/
theorem RyRz_eq : mmul x.Ry x.Rz =
    ![![x.cy * x.cz, x.cy * -x.sz, -x.sy], ![x.sz, x.cz, 0], ![x.sy * x.cz, x.sy * -x.sz, x.cy]] := by
  funext p q
  rw [mmul_apply]
  fin_cases p <;> fin_cases q <;> simp [Ry, Rz]

/-- The rotation `Rx · (Ry · Rz)` is the matrix of the expanded entries `r00 … r22`. -/
theorem rot_eq : mmul x.Rx (mmul x.Ry x.Rz) =
    ![![x.r00, x.r01, x.r02], ![x.r10, x.r11, x.r12], ![x.r20, x.r21, x.r22]] := by
  funext p q
  rw [mmul_apply, RyRz_eq]
  fin_cases p <;> fin_cases q <;>
    simp [Rx, r00, r01, r02, r10, r11, r12, r20, r21, r22, sub_eq_add_neg, mul_assoc]

/-- `R · K₁`: the first two columns scaled by `k₁`, the third kept. -/
theorem rotK1_eq : mmul (mmul x.Rx (mmul x.Ry x.Rz)) x.K1 =
    ![![x.k1 * x.r00, x.k1 * x.r01, x.r02], ![x.k1 * x.r10, x.k1 * x.r11, x.r12],
      ![x.k1 * x.r20, x.k1 * x.r21, x.r22]] := by
  funext p q
  rw [mmul_apply, rot_eq]
  fin_cases p <;> fin_cases q <;> simp [K1, mul_comm]

/-- The five products, entry `(p, q)`, are the expanded entry `3 p + q`. -/
theorem product_eq_entry (p q : Fin 3) :
    x.product p q = x.entry ⟨3 * p.val + q.val, by have := p.isLt; have := q.isLt; omega⟩ := by
  unfold product
  rw [rotK1_eq]
  simp only [mmul_apply]
  fin_cases p <;> fin_cases q <;> simp [K2, T, entry, sub_eq_add_neg]

end Row

/-! ## The layer on a whole array -/

open Idealize.ShloMosaic.ValueIdx

/-- Row `r` of an `[n, 8]` array: its eight parameters in column order. -/
def rowOf {n : ℕ} (X : (⟨2, ![n, 8]⟩ : Shape).Idx → EReal) (r : Fin n) : Row :=
  ⟨X (ix2 r 0), X (ix2 r 1), X (ix2 r 2), X (ix2 r 3), X (ix2 r 4), X (ix2 r 5), X (ix2 r 6), X (ix2 r 7)⟩

/-- The layer on an `[n, 8]` array: entry `(r, j)` of the `[n, 9]` result is entry `j` of row `r`'s matrix. -/
def layer {n : ℕ} (X : (⟨2, ![n, 8]⟩ : Shape).Idx → EReal) : (⟨2, ![n, 9]⟩ : Shape).Idx → EReal :=
  fun i => (rowOf X (i 0)).entry (i 1)

end Cert.RowMatrix

end
-- ==== Proof.KernelBlock.lean ====
/-
  The kernel's side of the value claim: after the run the result array holds `layer` of the argument array.

  One grid point loads a block of 8192 rows, turns it so that each of the eight parameters is one long lane row,
  computes the nine entries lane by lane, stacks the nine rows and turns the stack back. So entry `(r, j)` of the
  block a point writes depends on row `r` of the block it loaded and on nothing else, and it is entry `j` of that
  row's matrix. Point `t` loads rows `8192 t … 8192 t + 8191` of the argument and writes the same rows of the result,
  and the 512 points cover every row.
-/
import proofs.«131184_j11897059410241_1_alg».proof.Proof.Gen.KernelIdeal.Value
import proofs.«131184_j11897059410241_1_alg».proof.Proof.RowEntries
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RowValue

open Cert.KernelIdeal Cert.KernelIdeal.Gen Cert.RowMatrix

theorem hz : (![0, 0] : Fin 2 → Nat) = fun _ => 0 := funext fun a => by fin_cases a <;> rfl

/-! ## One point: the block written from the block loaded -/

/-- Lane row `o` of the turned block, at lane `r`, is column `o` of row `r` of the block. -/
theorem col_read (P0 : Vec Ideal S8192x8 .f32) (o : ℕ) (ho : o < 8) (h : S8x8192.Slices ![o, 0] S1x8192) (j : S1x8192.Idx) :
    extractStridedSlice S1x8192 ![o, 0] (transpose S8x8192 [1, 0] P0 transposes_S8192x8_p1_0_S8x8192) h j
      = P0 (ix2 (j 1 : Fin 8192) (⟨o, ho⟩ : Fin 8)) := by
  obtain ⟨a, r, rfl⟩ : ∃ (a : Fin 1) (r : Fin 8192), j = ix2 a r := ⟨j 0, j 1, eq_ix2 j⟩
  have ha : a.val = 0 := by have := a.isLt; omega
  rw [slice2_axis0_apply o _ h a r ⟨o, ho⟩ (by show o = o + a.val; omega)]
  exact transpose_ix2_apply P0 _ ⟨o, ho⟩ r

/-- Each of the nine stacked lane rows, at lane `r`, is that entry of row `r`'s matrix: the body's operations are
    lane by lane, and the literal `0` it subtracts from is the extended real zero. -/
theorem operand_apply (P0 : Vec Ideal S8192x8 .f32) (n : Fin 9) (j : S1x8192.Idx) :
    Value.Cat1_0 P0 n j = (rowOf (n := 8192) P0 (j 1 : Fin 8192)).entry n := by
  have hs : ∀ b : BitVec 32, Scalar.ofBits (F := Ideal) .f32 b = Ideal.ofBits .f32 b := fun _ => rfl
  fin_cases n <;>
  · simp only [Value.Cat1_0]
    simp only [mulf, divf, addf, subf, cos, sin, broadcast, hs, Ideal.ofBits_zero_f32,
      col_read P0 0 (by decide), col_read P0 1 (by decide), col_read P0 2 (by decide), col_read P0 3 (by decide),
      col_read P0 4 (by decide), col_read P0 5 (by decide), col_read P0 6 (by decide), col_read P0 7 (by decide)]
    rfl

/-- The block a point writes, entry `(r, j)`: entry `j` of the matrix of row `r` of the block it loaded. -/
theorem out_apply (P0 : Vec Ideal S8192x8 .f32) (y : S8192x9.Idx) :
    out0_1 P0 y = (rowOf (n := 8192) P0 (y 0 : Fin 8192)).entry (y 1 : Fin 9) := by
  unfold out0_1
  simp only [View.ld_unit_zero (S := S8192x8) hz]
  rw [Value.canon1_eq P0 y]
  exact operand_apply P0 (Value.csel1_0 y) (Value.ix1_0 y)

/-! ## All points: the result array -/

variable (m : (ℓ : Loc nD τ sig) → Buf (Elt Ideal) ℓ) (ρ : Dev nD → PrngReg)

/-- Both windows move down the rows one block per point and never sideways (decided over the 512 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A point's number is below 512. -/
theorem pt_lt (t : Fin cfg0.N) : t.val < 512 := Nat.lt_of_lt_of_eq t.isLt N_0

/-- The block point `t` loads, and the argument array, at their literal shapes. -/
abbrev xblk (c : Dev nD) (t : Fin cfg0.N) : Vec Ideal S8192x8 .f32 := iblk m c 0 t
abbrev xarr (c : Dev nD) : Vec Ideal S4194304x8 .f32 := V m c main_arg0

/-- Row `r` of point `t`'s block is row `8192 t + r` of the array. -/
abbrev rowAt (t : Fin cfg0.N) (r : Fin 8192) : Fin 4194304 :=
  ⟨t.val * 8192 + r.val, by have := pt_lt t; have := r.isLt; omega⟩

/-- The loaded block read at `(r, k)` is the argument at `(8192 t + r, k)`. -/
theorem xblk_apply (c : Dev nD) (t : Fin cfg0.N) (r : Fin 8192) (k : Fin 8) :
    xblk m c t (ix2 r k) = xarr m c (ix2 (rowAt t r) k) := by
  obtain ⟨e0, e1, -, -⟩ := idx_facts t
  unfold xblk iblk
  rw [View.read_apply]
  show V m c main_arg0 _ = V m c main_arg0 _
  congr 1
  funext a
  apply Fin.ext
  match a with
  | ⟨0, _⟩ => show win0_0.index t (0 : Fin 2) * 8192 + 1 * r.val = t.val * 8192 + r.val; rw [e0]; omega
  | ⟨1, _⟩ => show win0_0.index t (1 : Fin 2) * 8 + 1 * k.val = k.val; rw [e1]; omega

/-- So a row of the block holds the parameters of that row of the array. -/
theorem row_blk (c : Dev nD) (t : Fin cfg0.N) (r : Fin 8192) :
    rowOf (n := 8192) (xblk m c t) r = rowOf (n := 4194304) (xarr m c) (rowAt t r) := by
  unfold rowOf
  rw [xblk_apply m c t r 0, xblk_apply m c t r 1, xblk_apply m c t r 2, xblk_apply m c t r 3,
    xblk_apply m c t r 4, xblk_apply m c t r 5, xblk_apply m c t r 6, xblk_apply m c t r 7]

/-- What point `t` writes back is block `t` of `layer` of the argument array. -/
theorem flushed_eq (c : Dev nD) (t : Fin cfg0.N) :
    (dats m 0 c).flushed 1 t = ((cfg0.win 1).blk t).view.read (Elt Ideal) (layer (n := 4194304) (xarr m c)) := by
  obtain ⟨-, -, e2, e3⟩ := idx_facts t
  rw [Value.flushed1]
  funext y
  show out0_1 (xblk m c t) y = layer (n := 4194304) (xarr m c) (((cfg0.win 1).blk t).view.emb y)
  obtain ⟨r, j, rfl⟩ : ∃ (r : Fin 8192) (j : Fin 9), y = ix2 r j := ⟨y 0, y 1, eq_ix2 y⟩
  have hemb : ((cfg0.win 1).blk t).view.emb (ix2 r j) = (ix2 (rowAt t r) j : S4194304x9.Idx) := by
    funext a
    apply Fin.ext
    match a with
    | ⟨0, _⟩ => show win0_1.index t (0 : Fin 2) * 8192 + 1 * r.val = t.val * 8192 + r.val; rw [e2]; omega
    | ⟨1, _⟩ => show win0_1.index t (1 : Fin 2) * 9 + 1 * j.val = j.val; rw [e3]; omega
  rw [hemb, out_apply]
  show (rowOf (n := 8192) (xblk m c t) r).entry j = (rowOf (n := 4194304) (xarr m c) (rowAt t r)).entry j
  rw [row_blk]

/-- Every index of the result lies in the block of the point that holds its row, `row / 8192`. -/
theorem cover (i : S4194304x9.Idx) :
    ∃ t : Fin cfg0.N, (cfg0.win 1).flush t = true ∧ i ∈ ((cfg0.win 1).blk t).view.set := by
  have hi0 : (i 0).val < 4194304 := (i 0).isLt
  have hi1 : (i 1).val < 9 := (i 1).isLt
  let t : Fin cfg0.N := ⟨(i 0).val / 8192, by rw [show cfg0.N = 512 from N_0]; omega⟩
  obtain ⟨-, -, e2, e3⟩ := idx_facts t
  have ht : t.val = (i 0).val / 8192 := rfl
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 8192 ≤ (i 0).val ∧ (i 0).val < win0_1.index t (0 : Fin 2) * 8192 + 8192
    rw [e2, ht]; omega
  | ⟨1, _⟩ =>
    show win0_1.index t (1 : Fin 2) * 9 ≤ (i 1).val ∧ (i 1).val < win0_1.index t (1 : Fin 2) * 9 + 9
    rw [e3]; omega

/-- The result array after the run is `layer` of the argument array. -/
theorem final (c : Dev nD) : (dats m 0 c).arrAt 1 cfg0.N = layer (n := 4194304) (xarr m c) :=
  (dats m 0 c).arrAt_eq_of_cover 1 (layer (n := 4194304) (xarr m c)) (fun t _ => flushed_eq m c t) (cover)

/-- The run, read: the result array at `layer` of the argument, the argument unchanged. -/
theorem run : θ_run defs (onTc (τ := τ) (main (F := Ideal))) ⟨m, fun _ => 0, ρ⟩ fun r => ∀ c : Dev nD,
      r.2.mem ((c : Thread nD τ).loc main_v0) = layer (n := 4194304) (xarr m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.RowValue

end
-- ==== Proof.ReferenceRows.lean ====
/-
  The reference's side of the value claim: its result is `layer` of the argument array.

  The reference slices the eight parameter columns out of the `[B, 8]` argument, builds six `[B, 3, 3]` arrays
  (the three axis rotations, the skew matrix of the translation and the two diagonal scale matrices), each by
  stacking nine `[B]` vectors — columns of parameters, their cosines and sines, their negations, zeros and ones —,
  multiplies them with five batched matrix products and flattens the `[B, 3, 3]` result to `[B, 9]`.
  So for a row `b` the six arrays at `(b, ·, ·)` are the six matrices of `Row`, a batched product at `(b, p, q)` is
  the sum over the inner index of the products of the two operands at `b`, and the flattened result at `(b, j)` is
  entry `(j / 3, j % 3)` of the five-fold product: `Row.product`, which is `Row.entry`.
-/
import proofs.«131184_j11897059410241_1_alg».proof.Proof.Gen.ReferenceIdeal.Read
import proofs.«131184_j11897059410241_1_alg».proof.Proof.RowEntries
import Idealize.ShloMosaic.Lib.Pipeline.Value
import Idealize.ShloMosaic.Lib.ValueIdx
import Idealize.ShloMosaic.Lib.IdealHost
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RowValue

open Cert.ReferenceIdeal Cert.ReferenceIdeal.Gen Cert.ReferenceIdeal.Read Cert.RowMatrix

/-- A `[B]` vector, a `[B, 8]` argument, at the extended reals. -/
abbrev BVec := (⟨S4194304, .f32⟩ : BufTy).Contents (Elt Ideal)
abbrev Arg := (⟨S4194304x8, .f32⟩ : BufTy).Contents (Elt Ideal)

/-! ## A `[B, 3, 3]` array stacked from nine `[B]` vectors -/

/-- A `[B]` vector as a `[B, 1]` column. -/
def col (v : BVec) : (⟨S4194304x1, .f32⟩ : BufTy).Contents (Elt Ideal) :=
  broadcastInDim S4194304x1 ![0] bcast_S4194304_S4194304x1_0 v

/-- Three `[B]` vectors side by side: a `[B, 3]` array, one matrix row per batch element. -/
def rowv (r : Fin 3 → BVec) : (⟨S4194304x3, .f32⟩ : BufTy).Contents (Elt Ideal) :=
  concatenate S4194304x3 1 [⟨S4194304x1, col (r 0)⟩, ⟨S4194304x1, col (r 1)⟩, ⟨S4194304x1, col (r 2)⟩]
    concatenates_S4194304x1_S4194304x1_S4194304x1_S4194304x3_d1

/-- A `[B, 3]` array as `[B, 1, 3]`. -/
def up (w : (⟨S4194304x3, .f32⟩ : BufTy).Contents (Elt Ideal)) : (⟨S4194304x1x3, .f32⟩ : BufTy).Contents (Elt Ideal) :=
  broadcastInDim S4194304x1x3 ![0, 2] bcast_S4194304x3_S4194304x1x3_0_2 w

/-- Nine `[B]` vectors as a `[B, 3, 3]` array: three matrix rows stacked. -/
def stack (e : Fin 3 → Fin 3 → BVec) : (⟨S4194304x3x3, .f32⟩ : BufTy).Contents (Elt Ideal) :=
  concatenate S4194304x3x3 1 [⟨S4194304x1x3, up (rowv (e 0))⟩, ⟨S4194304x1x3, up (rowv (e 1))⟩, ⟨S4194304x1x3, up (rowv (e 2))⟩]
    concatenates_S4194304x1x3_S4194304x1x3_S4194304x1x3_S4194304x3x3_d1

theorem col_apply (v : BVec) (b : Fin 4194304) : col v (ix2 b (0 : Fin 1)) = v (ix1 b) := by
  unfold col
  exact broadcastInDim_apply _ bcast_S4194304_S4194304x1_0 v (ix2 b (0 : Fin 1)) (ix1 b) (fun a => match a with
    | ⟨0, _⟩ => by show b.val = if (4194304 : Nat) = 1 then 0 else b.val; rw [if_neg (by decide)])

theorem rowv_apply (r : Fin 3 → BVec) (b : Fin 4194304) (q : Fin 3) : rowv r (ix2 b q) = r q (ix1 b) := by
  unfold rowv
  show concatenate S4194304x3 1 (List.ofFn fun n : Fin 3 => (⟨S4194304x1, col (r n)⟩ : (s : Shape) × (s.Idx → _))) _ (ix2 b q) = _
  refine (concatenate_ofFn_unit_apply (t := S4194304x3) (s₁ := S4194304x1) (1 : Fin 2) (fun n => col (r n)) _ rfl rfl
    (ix2 b q) q rfl (ix2 b (0 : Fin 1)) (fun a ha => by
      match a with
      | ⟨0, _⟩ => rfl
      | ⟨1, _⟩ => exact absurd rfl ha)).trans ?_
  exact col_apply (r q) b

theorem up_apply (w : (⟨S4194304x3, .f32⟩ : BufTy).Contents (Elt Ideal)) (b : Fin 4194304) (q : Fin 3) :
    up w (ix3 b (0 : Fin 1) q) = w (ix2 b q) := by
  unfold up
  exact broadcastInDim_apply _ bcast_S4194304x3_S4194304x1x3_0_2 w (ix3 b (0 : Fin 1) q) (ix2 b q) (fun a => match a with
    | ⟨0, _⟩ => by show b.val = if (4194304 : Nat) = 1 then 0 else b.val; rw [if_neg (by decide)]
    | ⟨1, _⟩ => by show q.val = if (3 : Nat) = 1 then 0 else q.val; rw [if_neg (by decide)])

/-- The stacked array at `(b, p, q)` is vector `(p, q)` at `b`. -/
theorem stack_apply (e : Fin 3 → Fin 3 → BVec) (b : Fin 4194304) (p q : Fin 3) : stack e (ix3 b p q) = e p q (ix1 b) := by
  unfold stack
  show concatenate S4194304x3x3 1 (List.ofFn fun n : Fin 3 => (⟨S4194304x1x3, up (rowv (e n))⟩ : (s : Shape) × (s.Idx → _))) _ (ix3 b p q) = _
  refine (concatenate_ofFn_unit_apply (t := S4194304x3x3) (s₁ := S4194304x1x3) (1 : Fin 3) (fun n => up (rowv (e n))) _ rfl rfl
    (ix3 b p q) p rfl (ix3 b (0 : Fin 1) q) (fun a ha => by
      match a with
      | ⟨0, _⟩ => rfl
      | ⟨1, _⟩ => exact absurd rfl ha
      | ⟨2, _⟩ => rfl)).trans ?_
  rw [up_apply, rowv_apply]

/-! ## The `[B]` vectors at a row -/

variable (x0 : Arg) (b : Fin 4194304)

theorem zero_at (i : S4194304.Idx) : val_main_v16 (F := Ideal) i = 0 := by
  rw [val_main_v16_apply, val_main_cst_apply]; exact Ideal.ofBits_zero_f32
theorem one_at (i : S4194304.Idx) : val_main_v17 (F := Ideal) i = 1 := by
  rw [val_main_v17_apply, val_main_cst_0_apply]; exact Ideal.ofBits_one_f32
theorem eps_at (i : S4194304.Idx) : val_main_v96 (F := Ideal) i = eps := by
  rw [val_main_v96_apply, val_main_cst_1_apply]; rfl
theorem negOne_at (i : S4194304.Idx) : val_main_v98 (F := Ideal) i = negOne := by
  rw [val_main_v98_apply, val_main_cst_2_apply]; rfl
theorem eps_at' (i : S4194304.Idx) : val_main_v100 (F := Ideal) i = eps := by
  rw [val_main_v100_apply, val_main_cst_3_apply]; rfl
theorem negOne_at' (i : S4194304.Idx) : val_main_v102 (F := Ideal) i = negOne := by
  rw [val_main_v102_apply, val_main_cst_4_apply]; rfl

/-- The eight parameter columns at row `b`. -/
theorem f1_at : val_main_v1 (F := Ideal) x0 (ix1 b) = (rowOf (n := 4194304) x0 b).f1 := by
  rw [val_main_v1_apply, val_main_v0_apply]
  exact congrArg x0 (funext fun a => Fin.ext (by match a with | ⟨0, _⟩ => exact Nat.div_one _ | ⟨1, _⟩ => rfl))
theorem f2_at : val_main_v3 (F := Ideal) x0 (ix1 b) = (rowOf (n := 4194304) x0 b).f2 := by
  rw [val_main_v3_apply, val_main_v2_apply]
  exact congrArg x0 (funext fun a => Fin.ext (by match a with | ⟨0, _⟩ => exact Nat.div_one _ | ⟨1, _⟩ => rfl))
theorem rx_at : val_main_v5 (F := Ideal) x0 (ix1 b) = (rowOf (n := 4194304) x0 b).rx := by
  rw [val_main_v5_apply, val_main_v4_apply]
  exact congrArg x0 (funext fun a => Fin.ext (by match a with | ⟨0, _⟩ => exact Nat.div_one _ | ⟨1, _⟩ => rfl))
theorem ry_at : val_main_v7 (F := Ideal) x0 (ix1 b) = (rowOf (n := 4194304) x0 b).ry := by
  rw [val_main_v7_apply, val_main_v6_apply]
  exact congrArg x0 (funext fun a => Fin.ext (by match a with | ⟨0, _⟩ => exact Nat.div_one _ | ⟨1, _⟩ => rfl))
theorem rz_at : val_main_v9 (F := Ideal) x0 (ix1 b) = (rowOf (n := 4194304) x0 b).rz := by
  rw [val_main_v9_apply, val_main_v8_apply]
  exact congrArg x0 (funext fun a => Fin.ext (by match a with | ⟨0, _⟩ => exact Nat.div_one _ | ⟨1, _⟩ => rfl))
theorem tx_at : val_main_v11 (F := Ideal) x0 (ix1 b) = (rowOf (n := 4194304) x0 b).tx := by
  rw [val_main_v11_apply, val_main_v10_apply]
  exact congrArg x0 (funext fun a => Fin.ext (by match a with | ⟨0, _⟩ => exact Nat.div_one _ | ⟨1, _⟩ => rfl))
theorem ty_at : val_main_v13 (F := Ideal) x0 (ix1 b) = (rowOf (n := 4194304) x0 b).ty := by
  rw [val_main_v13_apply, val_main_v12_apply]
  exact congrArg x0 (funext fun a => Fin.ext (by match a with | ⟨0, _⟩ => exact Nat.div_one _ | ⟨1, _⟩ => rfl))
theorem tz_at : val_main_v15 (F := Ideal) x0 (ix1 b) = (rowOf (n := 4194304) x0 b).tz := by
  rw [val_main_v15_apply, val_main_v14_apply]
  exact congrArg x0 (funext fun a => Fin.ext (by match a with | ⟨0, _⟩ => exact Nat.div_one _ | ⟨1, _⟩ => rfl))

/-- Cosines and sines of the angles, the host's functions being the kernel's at the extended reals. -/
theorem cx_at : val_main_v18 (F := Ideal) x0 (ix1 b) = (rowOf (n := 4194304) x0 b).cx := by
  show Ideal.cos (val_main_v5 (F := Ideal) x0 (ix1 b)) = _; rw [rx_at]; rfl
theorem sx_at : val_main_v19 (F := Ideal) x0 (ix1 b) = (rowOf (n := 4194304) x0 b).sx := by
  show Ideal.sin (val_main_v5 (F := Ideal) x0 (ix1 b)) = _; rw [rx_at]; rfl
theorem cy_at : val_main_v20 (F := Ideal) x0 (ix1 b) = (rowOf (n := 4194304) x0 b).cy := by
  show Ideal.cos (val_main_v7 (F := Ideal) x0 (ix1 b)) = _; rw [ry_at]; rfl
theorem sy_at : val_main_v21 (F := Ideal) x0 (ix1 b) = (rowOf (n := 4194304) x0 b).sy := by
  show Ideal.sin (val_main_v7 (F := Ideal) x0 (ix1 b)) = _; rw [ry_at]; rfl
theorem cz_at : val_main_v22 (F := Ideal) x0 (ix1 b) = (rowOf (n := 4194304) x0 b).cz := by
  show Ideal.cos (val_main_v9 (F := Ideal) x0 (ix1 b)) = _; rw [rz_at]; rfl
theorem sz_at : val_main_v23 (F := Ideal) x0 (ix1 b) = (rowOf (n := 4194304) x0 b).sz := by
  show Ideal.sin (val_main_v9 (F := Ideal) x0 (ix1 b)) = _; rw [rz_at]; rfl

/-- The negated vectors. -/
theorem nsx_at : val_main_v24 (F := Ideal) x0 (ix1 b) = -(rowOf (n := 4194304) x0 b).sx := by
  show -(val_main_v19 (F := Ideal) x0 (ix1 b)) = _; rw [sx_at]
theorem nsy_at : val_main_v41 (F := Ideal) x0 (ix1 b) = -(rowOf (n := 4194304) x0 b).sy := by
  show -(val_main_v21 (F := Ideal) x0 (ix1 b)) = _; rw [sy_at]
theorem nsz_at : val_main_v58 (F := Ideal) x0 (ix1 b) = -(rowOf (n := 4194304) x0 b).sz := by
  show -(val_main_v23 (F := Ideal) x0 (ix1 b)) = _; rw [sz_at]
theorem ntz_at : val_main_v77 (F := Ideal) x0 (ix1 b) = -(rowOf (n := 4194304) x0 b).tz := by
  show -(val_main_v15 (F := Ideal) x0 (ix1 b)) = _; rw [tz_at]
theorem ntx_at : val_main_v78 (F := Ideal) x0 (ix1 b) = -(rowOf (n := 4194304) x0 b).tx := by
  show -(val_main_v11 (F := Ideal) x0 (ix1 b)) = _; rw [tx_at]
theorem nty_at : val_main_v79 (F := Ideal) x0 (ix1 b) = -(rowOf (n := 4194304) x0 b).ty := by
  show -(val_main_v13 (F := Ideal) x0 (ix1 b)) = _; rw [ty_at]

/-- The two scale factors. -/
theorem k1_at : val_main_v99 (F := Ideal) x0 (ix1 b) = (rowOf (n := 4194304) x0 b).k1 := by
  show Ideal.div (val_main_v98 (F := Ideal) (ix1 b)) (val_main_v1 (F := Ideal) x0 (ix1 b) + val_main_v96 (F := Ideal) (ix1 b)) = _
  rw [negOne_at, eps_at, f1_at]; rfl
theorem k2_at : val_main_v103 (F := Ideal) x0 (ix1 b) = (rowOf (n := 4194304) x0 b).k2 := by
  show Ideal.div (val_main_v102 (F := Ideal) (ix1 b)) (val_main_v3 (F := Ideal) x0 (ix1 b) + val_main_v100 (F := Ideal) (ix1 b)) = _
  rw [negOne_at', eps_at', f2_at]; rfl

/-! ## The six stacked matrices at a row -/

theorem Rx_at (p q : Fin 3) : val_main_v40 (F := Ideal) x0 (ix3 b p q) = (rowOf (n := 4194304) x0 b).Rx p q := by
  rw [show val_main_v40 (F := Ideal) x0 = stack ![![val_main_v17, val_main_v16, val_main_v16],
    ![val_main_v16, val_main_v18 x0, val_main_v24 x0], ![val_main_v16, val_main_v19 x0, val_main_v18 x0]] from rfl, stack_apply]
  fin_cases p <;> fin_cases q <;> simp [Row.Rx, zero_at, one_at, cx_at, sx_at, nsx_at]

theorem Ry_at (p q : Fin 3) : val_main_v57 (F := Ideal) x0 (ix3 b p q) = (rowOf (n := 4194304) x0 b).Ry p q := by
  rw [show val_main_v57 (F := Ideal) x0 = stack ![![val_main_v20 x0, val_main_v16, val_main_v41 x0],
    ![val_main_v16, val_main_v17, val_main_v16], ![val_main_v21 x0, val_main_v16, val_main_v20 x0]] from rfl, stack_apply]
  fin_cases p <;> fin_cases q <;> simp [Row.Ry, zero_at, one_at, cy_at, sy_at, nsy_at]

theorem Rz_at (p q : Fin 3) : val_main_v74 (F := Ideal) x0 (ix3 b p q) = (rowOf (n := 4194304) x0 b).Rz p q := by
  rw [show val_main_v74 (F := Ideal) x0 = stack ![![val_main_v22 x0, val_main_v58 x0, val_main_v16],
    ![val_main_v23 x0, val_main_v22 x0, val_main_v16], ![val_main_v16, val_main_v16, val_main_v17]] from rfl, stack_apply]
  fin_cases p <;> fin_cases q <;> simp [Row.Rz, zero_at, one_at, cz_at, sz_at, nsz_at]

theorem T_at (p q : Fin 3) : val_main_v95 (F := Ideal) x0 (ix3 b p q) = (rowOf (n := 4194304) x0 b).T p q := by
  rw [show val_main_v95 (F := Ideal) x0 = stack ![![val_main_v16, val_main_v77 x0, val_main_v13 x0],
    ![val_main_v15 x0, val_main_v16, val_main_v78 x0], ![val_main_v79 x0, val_main_v11 x0, val_main_v16]] from rfl, stack_apply]
  fin_cases p <;> fin_cases q <;> simp [Row.T, zero_at, tx_at, ty_at, tz_at, ntx_at, nty_at, ntz_at]

theorem K1_at (p q : Fin 3) : val_main_v119 (F := Ideal) x0 (ix3 b p q) = (rowOf (n := 4194304) x0 b).K1 p q := by
  rw [show val_main_v119 (F := Ideal) x0 = stack ![![val_main_v99 x0, val_main_v16, val_main_v16],
    ![val_main_v16, val_main_v99 x0, val_main_v16], ![val_main_v16, val_main_v16, val_main_v17]] from rfl, stack_apply]
  fin_cases p <;> fin_cases q <;> simp [Row.K1, zero_at, one_at, k1_at]

theorem K2_at (p q : Fin 3) : val_main_v135 (F := Ideal) x0 (ix3 b p q) = (rowOf (n := 4194304) x0 b).K2 p q := by
  rw [show val_main_v135 (F := Ideal) x0 = stack ![![val_main_v103 x0, val_main_v16, val_main_v16],
    ![val_main_v16, val_main_v103 x0, val_main_v16], ![val_main_v16, val_main_v16, val_main_v17]] from rfl, stack_apply]
  fin_cases p <;> fin_cases q <;> simp [Row.K2, zero_at, one_at, k2_at]

/-! ## The five batched products at a row -/

theorem dot75 (p q : Fin 3) : val_main_v75 (F := Ideal) x0 (ix3 b p q)
    = ∑ k : Fin 3, val_main_v57 (F := Ideal) x0 (ix3 b p k) * val_main_v74 (F := Ideal) x0 (ix3 b k q) := by
  rw [val_main_v75_apply]
  refine Finset.sum_congr rfl fun k _ => ?_
  have hl : lidx_main_v75 (ix3 b p q) k = ix3 b p k := funext fun a => by match a with | ⟨0, _⟩ => rfl | ⟨1, _⟩ => rfl | ⟨2, _⟩ => rfl
  have hr : ridx_main_v75 (ix3 b p q) k = ix3 b k q := funext fun a => by match a with | ⟨0, _⟩ => rfl | ⟨1, _⟩ => rfl | ⟨2, _⟩ => rfl
  rw [hl, hr]

theorem dot76 (p q : Fin 3) : val_main_v76 (F := Ideal) x0 (ix3 b p q)
    = ∑ k : Fin 3, val_main_v40 (F := Ideal) x0 (ix3 b p k) * val_main_v75 (F := Ideal) x0 (ix3 b k q) := by
  rw [val_main_v76_apply]
  refine Finset.sum_congr rfl fun k _ => ?_
  have hl : lidx_main_v76 (ix3 b p q) k = ix3 b p k := funext fun a => by match a with | ⟨0, _⟩ => rfl | ⟨1, _⟩ => rfl | ⟨2, _⟩ => rfl
  have hr : ridx_main_v76 (ix3 b p q) k = ix3 b k q := funext fun a => by match a with | ⟨0, _⟩ => rfl | ⟨1, _⟩ => rfl | ⟨2, _⟩ => rfl
  rw [hl, hr]

theorem dot136 (p q : Fin 3) : val_main_v136 (F := Ideal) x0 (ix3 b p q)
    = ∑ k : Fin 3, val_main_v76 (F := Ideal) x0 (ix3 b p k) * val_main_v119 (F := Ideal) x0 (ix3 b k q) := by
  rw [val_main_v136_apply]
  refine Finset.sum_congr rfl fun k _ => ?_
  have hl : lidx_main_v136 (ix3 b p q) k = ix3 b p k := funext fun a => by match a with | ⟨0, _⟩ => rfl | ⟨1, _⟩ => rfl | ⟨2, _⟩ => rfl
  have hr : ridx_main_v136 (ix3 b p q) k = ix3 b k q := funext fun a => by match a with | ⟨0, _⟩ => rfl | ⟨1, _⟩ => rfl | ⟨2, _⟩ => rfl
  rw [hl, hr]

theorem dot137 (p q : Fin 3) : val_main_v137 (F := Ideal) x0 (ix3 b p q)
    = ∑ k : Fin 3, val_main_v95 (F := Ideal) x0 (ix3 b p k) * val_main_v136 (F := Ideal) x0 (ix3 b k q) := by
  rw [val_main_v137_apply]
  refine Finset.sum_congr rfl fun k _ => ?_
  have hl : lidx_main_v137 (ix3 b p q) k = ix3 b p k := funext fun a => by match a with | ⟨0, _⟩ => rfl | ⟨1, _⟩ => rfl | ⟨2, _⟩ => rfl
  have hr : ridx_main_v137 (ix3 b p q) k = ix3 b k q := funext fun a => by match a with | ⟨0, _⟩ => rfl | ⟨1, _⟩ => rfl | ⟨2, _⟩ => rfl
  rw [hl, hr]

theorem dot138 (p q : Fin 3) : val_main_v138 (F := Ideal) x0 (ix3 b p q)
    = ∑ k : Fin 3, val_main_v135 (F := Ideal) x0 (ix3 b p k) * val_main_v137 (F := Ideal) x0 (ix3 b k q) := by
  rw [val_main_v138_apply]
  refine Finset.sum_congr rfl fun k _ => ?_
  have hl : lidx_main_v138 (ix3 b p q) k = ix3 b p k := funext fun a => by match a with | ⟨0, _⟩ => rfl | ⟨1, _⟩ => rfl | ⟨2, _⟩ => rfl
  have hr : ridx_main_v138 (ix3 b p q) k = ix3 b k q := funext fun a => by match a with | ⟨0, _⟩ => rfl | ⟨1, _⟩ => rfl | ⟨2, _⟩ => rfl
  rw [hl, hr]

/-- The last product at `(b, p, q)` is entry `(p, q)` of row `b`'s five-fold matrix product. -/
theorem product_at (p q : Fin 3) : val_main_v138 (F := Ideal) x0 (ix3 b p q) = (rowOf (n := 4194304) x0 b).product p q := by
  simp only [Row.product, mmul, dot138, dot137, dot136, dot76, dot75, Rx_at, Ry_at, Rz_at, T_at, K1_at, K2_at]

/-! ## The flattened result -/

/-- The reference's result at `(b, j)` is entry `j` of row `b`'s matrix. -/
theorem result_apply (j : Fin 9) : val_main_v139 (F := Ideal) x0 (ix2 b j) = (rowOf (n := 4194304) x0 b).entry j := by
  have hb : b.val < 4194304 := b.isLt
  have hj : j.val < 9 := j.isLt
  have hidx : idx_main_v139 (ix2 b j) = ix3 b (⟨j.val / 3, by omega⟩ : Fin 3) (⟨j.val % 3, by omega⟩ : Fin 3) :=
    funext fun a => Fin.ext (by
      match a with
      | ⟨0, _⟩ => show (b.val * 9 + j.val) / 9 = b.val; omega
      | ⟨1, _⟩ => show (b.val * 9 + j.val) / 3 % 3 = j.val / 3; omega
      | ⟨2, _⟩ => show (b.val * 9 + j.val) % 3 = j.val % 3; omega)
  rw [val_main_v139_apply, hidx, product_at, Row.product_eq_entry]
  exact congrArg _ (Fin.ext (by show 3 * (j.val / 3) + j.val % 3 = j.val; omega))

/-- The reference's result is `layer` of the argument. -/
theorem result_eq : val_main_v139 (F := Ideal) x0 = layer (n := 4194304) x0 := by
  funext i
  obtain ⟨b, j, rfl⟩ : ∃ (b : Fin 4194304) (j : Fin 9), i = ix2 b j := ⟨i 0, i 1, eq_ix2 i⟩
  exact result_apply x0 b j

end Cert.ReferenceIdeal.RowValue

end
-- ==== Proof.lean ====
/-
  The proof of `Cert.Claim`.

  Each of the 4,194,304 rows of the argument holds eight parameters — two focal lengths, three angles, a
  translation — and both programs turn a row into the nine entries of the 3×3 matrix
      F = K₂ · (T · (Rx · (Ry · Rz) · K₁)),
  the product of the three axis rotations, scaled on two columns by `k₁ = -1/(f₁ + ε)`, multiplied by the skew
  matrix of the translation and scaled on two rows by `k₂ = -1/(f₂ + ε)`.

  The kernel has the products expanded into scalar formulas and computes them lane by lane on blocks of 8192 rows
  (Proof/KernelBlock.lean: after its run the result array is `layer` of the argument). The reference stacks the six
  matrices as `[B, 3, 3]` arrays, zeros and ones included, and multiplies them with five batched products
  (Proof/ReferenceRows.lean: its result is `layer` of the argument too). Proof/RowEntries.lean is the mathematics
  between the two: a sum of three terms of which the factors' zeros kill all but the kernel's, the same cosine, sine
  and quotient on both sides, and no law beyond `0 · x = 0`, `x + 0 = x`, `1 · x = x`, commutativity, associativity
  and the sign rules — all of which hold on every extended real, so the inputs' finiteness is never used.

  The three frames are the generated ones (the reference's is its generated run with the result dropped), and the
  idealization rewrote nothing, so `preserves` is trivial.
-/
import proofs.«131184_j11897059410241_1_alg».proof.Defs
import proofs.«131184_j11897059410241_1_alg».proof.Proof.Gen.Kernel
import proofs.«131184_j11897059410241_1_alg».proof.Proof.Gen.Kernel.Skeleton
import proofs.«131184_j11897059410241_1_alg».proof.Proof.Gen.Kernel.Launch
import proofs.«131184_j11897059410241_1_alg».proof.Proof.Gen.Kernel.Points
import proofs.«131184_j11897059410241_1_alg».proof.Proof.Gen.Kernel.Frame
import proofs.«131184_j11897059410241_1_alg».proof.Proof.Gen.KernelIdeal
import proofs.«131184_j11897059410241_1_alg».proof.Proof.Gen.KernelIdeal.Skeleton
import proofs.«131184_j11897059410241_1_alg».proof.Proof.Gen.KernelIdeal.Launch
import proofs.«131184_j11897059410241_1_alg».proof.Proof.Gen.KernelIdeal.Points
import proofs.«131184_j11897059410241_1_alg».proof.Proof.Gen.KernelIdeal.Frame
import proofs.«131184_j11897059410241_1_alg».proof.Proof.Gen.ReferenceIdeal
import proofs.«131184_j11897059410241_1_alg».proof.Proof.Gen.Pre_finite_inputs
import proofs.«131184_j11897059410241_1_alg».proof.Proof.Gen.KernelIdeal.Value
import proofs.«131184_j11897059410241_1_alg».proof.Proof.Gen.ReferenceIdeal.Run
import proofs.«131184_j11897059410241_1_alg».proof.Proof.Gen.ReferenceIdeal.Read
import proofs.«131184_j11897059410241_1_alg».proof.Proof.RowEntries
import proofs.«131184_j11897059410241_1_alg».proof.Proof.KernelBlock
import proofs.«131184_j11897059410241_1_alg».proof.Proof.ReferenceRows
import Idealize.ShloMosaic.Adequacy
import Idealize.ShloMosaic.Init

noncomputable section

namespace Cert.Proof

open Idealize.ShloMosaic Idealize.ShloMosaic.TcCoe Idealize.SL.Sem Cert.RowMatrix

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `layer` of the argument array, and the two argument arrays agree. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v139_eq, Cert.ReferenceIdeal.RowValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
